-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S64 : Shape := ⟨1, ![64]⟩
abbrev S128x128 : Shape := ⟨2, ![128, 128]⟩
abbrev S128x64 : Shape := ⟨2, ![128, 64]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1000000x128 .f32) (main_arg1 : FVec F S64 .f32) (main_arg2 : FVec F S128x128 .f32) (main_arg3 : FVec F S128x64 .f32) (main_arg4 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S1000000x128 : Shape := ⟨2, ![1000000, 128]⟩
abbrev S64 : Shape := ⟨1, ![64]⟩
abbrev S128x128 : Shape := ⟨2, ![128, 128]⟩
abbrev S128x64 : Shape := ⟨2, ![128, 64]⟩
abbrev S128 : Shape := ⟨1, ![128]⟩
abbrev S_ : Shape := ⟨0, ![]⟩
abbrev S128x1 : Shape := ⟨2, ![128, 1]⟩
abbrev S1x128 : Shape := ⟨2, ![1, 128]⟩
abbrev S64x128 : Shape := ⟨2, ![64, 128]⟩
abbrev S256x128 : Shape := ⟨2, ![256, 128]⟩
abbrev S8000x128 : Shape := ⟨2, ![8000, 128]⟩
abbrev S8000x256 : Shape := ⟨2, ![8000, 256]⟩

abbrev nBuf : Space → Nat
  | .hbm => 38
  | .vmem => 6
  | .smem => 0
  | _ => 0

abbrev bufTy : (tb : Table) → Fin (tcTables nBuf tb) → BufTy
  | .hbm, ⟨0, _⟩ => ⟨S1000000x128, .f32⟩
  | .hbm, ⟨1, _⟩ => ⟨S64, .f32⟩
  | .hbm, ⟨2, _⟩ => ⟨S128x128, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S1x128, .f32⟩
  | .hbm, ⟨18, _⟩ => ⟨S128x128, .f32⟩
  | .hbm, ⟨19, _⟩ => ⟨S128x128, .f32⟩
  | .hbm, ⟨20, _⟩ => ⟨S128x64, .f32⟩
  | .hbm, ⟨21, _⟩ => ⟨S128x64, .f32⟩
  | .hbm, ⟨22, _⟩ => ⟨S128x64, .f32⟩
  | .hbm, ⟨23, _⟩ => ⟨S128x128, .f32⟩
  | .hbm, ⟨24, _⟩ => ⟨S128, .f32⟩
  | .hbm, ⟨25, _⟩ => ⟨S1x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S64x128, .f32⟩
  | .hbm, ⟨31, _⟩ => ⟨S_, .f32⟩
  | .hbm, ⟨32, _⟩ => ⟨S64x128, .f32⟩
  | .hbm, ⟨33, _⟩ => ⟨S128x128, .f32⟩
  | .hbm, ⟨34, _⟩ => ⟨S256x128, .f32⟩
  | .hbm, ⟨35, _⟩ => ⟨S256x128, .bf16⟩
  | .hbm, ⟨36, _⟩ => ⟨S1x128, .f32⟩
  | .hbm, ⟨37, _⟩ => ⟨S1000000x128, .f32⟩
  | .local _ .vmem, ⟨0, _⟩ => ⟨S8000x128, .f32⟩
  | .local _ .vmem, ⟨1, _⟩ => ⟨S8000x128, .f32⟩
  | .local _ .vmem, ⟨2, _⟩ => ⟨S256x128, .bf16⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  concatenates_S64_S64_S128_d0 : Shape.Concatenates [S64, S64] S128 0
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  slices_S128x128_S128x64_0_64 : S128x128.Slices ![0, 64] S128x64
  slices_S128x128_S128x64_0_0 : S128x128.Slices ![0, 0] S128x64
  concatenates_S128x64_S128x64_S128x128_d1 : Shape.Concatenates [S128x64, S128x64] S128x128 1
  transposes_S128x128_S128x128_1_0 : S128x128.Transposes [1, 0] S128x128
  transposes_S128x64_S64x128_1_0 : S128x64.Transposes [1, 0] S64x128
  bcast_S_S64x128 : S_.BroadcastsInDim S64x128 (![] : Fin 0 → Fin S64x128.rank)
  concatenates_S64x128_S64x128_S128x128_d0 : Shape.Concatenates [S64x128, S64x128] S128x128 0
  concatenates_S128x128_S128x128_S256x128_d0 : Shape.Concatenates [S128x128, S128x128] S256x128 0
  bitsLt_bf16_f32 : FTy.bits .bf16 < FTy.bits .f32
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  rotates_S8000x128_d1 : S8000x128.Rotates 1 none
  concatenates_S8000x128_S8000x128_S8000x256_d1 : Shape.Concatenates [S8000x128, S8000x128] S8000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  dot_S8000x256_S256x128_S8000x128_1_0_0_1_n_n_wf : DotDims.WF S8000x256 S256x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S1000000x128.size a
  hwx0_3 : ∀ i : grid0.Coords, EltTy.bits .f32 = 32 ∨ (Rect.block (s := S1000000x128) S8000x128.size (cc0_transform_3 i) (hinb0_3 i)).WholeWords (EltTy.packing .f32)

variable [Facts₀]

def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S64 : Shape := ⟨1, ![64]⟩
abbrev S128x128 : Shape := ⟨2, ![128, 128]⟩
abbrev S128x64 : Shape := ⟨2, ![128, 64]⟩
abbrev S128 : Shape := ⟨1, ![128]⟩
abbrev S_ : Shape := ⟨0, ![]⟩
abbrev S128x1 : Shape := ⟨2, ![128, 1]⟩
abbrev S1x128 : Shape := ⟨2, ![1, 128]⟩
abbrev S1000000x64 : Shape := ⟨2, ![1000000, 64]⟩
abbrev S64x128 : Shape := ⟨2, ![64, 128]⟩

abbrev nBuf : Space → Nat
  | .hbm => 46
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S64, .f32⟩
  | .hbm, ⟨2, _⟩ => ⟨S128x128, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S1x128, .f32⟩
  | .hbm, ⟨18, _⟩ => ⟨S128x128, .f32⟩
  | .hbm, ⟨19, _⟩ => ⟨S128x128, .f32⟩
  | .hbm, ⟨20, _⟩ => ⟨S128x64, .f32⟩
  | .hbm, ⟨21, _⟩ => ⟨S128x64, .f32⟩
  | .hbm, ⟨22, _⟩ => ⟨S128x64, .f32⟩
  | .hbm, ⟨23, _⟩ => ⟨S128x128, .f32⟩
  | .hbm, ⟨24, _⟩ => ⟨S128, .f32⟩
  | .hbm, ⟨25, _⟩ => ⟨S1x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S1000000x128, .f32⟩
  | .hbm, ⟨31, _⟩ => ⟨S1000000x64, .f32⟩
  | .hbm, ⟨32, _⟩ => ⟨S1000000x64, .f32⟩
  | .hbm, ⟨33, _⟩ => ⟨S1000000x64, .f32⟩
  | .hbm, ⟨34, _⟩ => ⟨S1000000x64, .f32⟩
  | .hbm, ⟨35, _⟩ => ⟨S1000000x64, .f32⟩
  | .hbm, ⟨36, _⟩ => ⟨S_, .f32⟩
  | .hbm, ⟨37, _⟩ => ⟨S1000000x64, .f32⟩
  | .hbm, ⟨38, _⟩ => ⟨S1000000x64, .f32⟩
  | .hbm, ⟨39, _⟩ => ⟨S1000000x64, .f32⟩
  | .hbm, ⟨40, _⟩ => ⟨S64x128, .f32⟩
  | .hbm, ⟨41, _⟩ => ⟨S1000000x128, .f32⟩
  | .hbm, ⟨42, _⟩ => ⟨S1000000x128, .f32⟩
  | .hbm, ⟨43, _⟩ => ⟨S1x128, .f32⟩
  | .hbm, ⟨44, _⟩ => ⟨S1000000x128, .f32⟩
  | .hbm, ⟨45, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  concatenates_S64_S64_S128_d0 : Shape.Concatenates [S64, S64] S128 0
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  slices_S128x128_S128x64_0_64 : S128x128.Slices ![0, 64] S128x64
  slices_S128x128_S128x64_0_0 : S128x128.Slices ![0, 0] S128x64
  concatenates_S128x64_S128x64_S128x128_d1 : Shape.Concatenates [S128x64, S128x64] S128x128 1
  transposes_S128x128_S128x128_1_0 : S128x128.Transposes [1, 0] S128x128
  slices_S1000000x128_S1000000x64_0_0 : S1000000x128.Slices ![0, 0] S1000000x64
  slices_S1000000x128_S1000000x64_0_64 : S1000000x128.Slices ![0, 64] S1000000x64
  bcast_S_S1000000x64 : S_.BroadcastsInDim S1000000x64 (![] : Fin 0 → Fin S1000000x64.rank)
  transposes_S128x64_S64x128_1_0 : S128x64.Transposes [1, 0] S64x128
  bcast_S1x128_S1000000x128_0_1 : S1x128.BroadcastsInDim S1000000x128 (![0, 1] : Fin 2 → Fin S1000000x128.rank)
  dot_S1000000x128_S128x128_S1000000x128_1_0_0_1_n_n_wf : DotDims.WF S1000000x128 S128x128 S1000000x128 [1] [0] [0] [1] [] []
  dot_S1000000x64_S64x128_S1000000x128_1_0_0_1_n_n_wf : DotDims.WF S1000000x64 S64x128 S1000000x128 [1] [0] [0] [1] [] []

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf

class Facts : Prop extends Facts₀ where

variable [Facts]
-- ==== Proof.Scoring.lean ====
/-
  The score both programs compute, one output element at a time.

  A key row `x` of 128 lanes holds 64 complex numbers: the real part of frequency `f` in lane `f`, the imaginary
  part in lane `64 + f`. Its score against one bin is

      ∑ k, x k · rt k  +  ∑ f, |x|_f · u f  +  b ,   |x|_f = √(x_f² + x_{64+f}² + ε),

  `rt` the bin's rotated probe, `u` its magnitude weights, `b` its bias. The reference adds the two sums as two matrix
  products. The kernel makes ONE product of length 256: it lays the row `x` and a row of magnitudes side by side — the
  magnitudes of all 128 lanes, got by adding to the squares their rotation by half a row, so that lane `j` and lane
  `j ± 64` hold the same number — against the column `rt`, then `u`, then 64 zeros. The zeros meet the second copy of
  the magnitudes, and on the extended reals a product with `0` is `0` whatever the other factor is; the rest is a
  sum split in three and regrouped, which needs only that addition is commutative and associative. So the two are
  equal on ALL extended reals: no finiteness is used.
-/
import Idealize.ShloMosaic.PureOps.Ideal
import Idealize.ShloMosaic.Lib.ValueIdx

noncomputable section

open scoped BigOperators

namespace Cert.Scoring

open Idealize.ShloMosaic Idealize.ShloMosaic.ValueIdx

/-- The lane of the real part of frequency `f` … -/
abbrev front (f : Fin 64) : Fin 128 := ⟨f.val, by omega⟩
/-- … and of its imaginary part, half a row further on. -/
abbrev back (f : Fin 64) : Fin 128 := ⟨64 + f.val, by omega⟩
/-- The lane half a row away from lane `j`, around the end. -/
abbrev swap (j : Fin 128) : Fin 128 := ⟨(j.val + 64) % 128, Nat.mod_lt _ (by decide)⟩

/-- The stabilizer under the root: the f32 nearest to 1e-8, as the extended real it denotes. -/
abbrev eps : EReal := Ideal.ofBits .f32 0x322BCC77#32

/-- The magnitude of the complex number of frequency `f` in row `x`. -/
def mag (x : Fin 128 → EReal) (f : Fin 64) : EReal :=
  Ideal.sqrt ((x (front f) * x (front f) + x (back f) * x (back f)) + eps)

/-- The same root taken at every lane `j` of the row, with the lane half a row away as the partner. -/
def magDup (x : Fin 128 → EReal) (j : Fin 128) : EReal :=
  Ideal.sqrt ((x j * x j + x (swap j) * x (swap j)) + eps)

/-- In the front half the partner of lane `f` is lane `64 + f`: the lane magnitude is the frequency's. -/
theorem magDup_front (x : Fin 128 → EReal) (f : Fin 64) : magDup x (front f) = mag x f := by
  unfold magDup mag
  have h : swap (front f) = back f := Fin.ext (by show (f.val + 64) % 128 = 64 + f.val; omega)
  rw [h]

/-- One score: the dot product with the rotated probe, plus the magnitudes against their weights, plus the bias. -/
def logit (x rt : Fin 128 → EReal) (u : Fin 64 → EReal) (b : EReal) : EReal :=
  (∑ k : Fin 128, x k * rt k + ∑ f : Fin 64, mag x f * u f) + b

/-- The row of length 256 the kernel contracts: the key row, then its 128 lane magnitudes. -/
def stackRow (x : Fin 128 → EReal) (j : Fin 256) : EReal :=
  if h : j.val < 128 then x ⟨j.val, h⟩ else magDup x ⟨j.val - 128, by omega⟩

/-- The column of length 256 it is contracted with: the rotated probe, the 64 magnitude weights, 64 zeros. -/
def stackCol (rt : Fin 128 → EReal) (u : Fin 64 → EReal) (j : Fin 256) : EReal :=
  if h : j.val < 128 then rt ⟨j.val, h⟩ else if h' : j.val < 192 then u ⟨j.val - 128, by omega⟩ else 0

/-- A sum over 256 positions, split at 128 and at 192. -/
theorem sum_256 (g : Fin 256 → EReal) :
    ∑ j, g j = ∑ k : Fin 128, g ⟨k.val, by omega⟩
      + (∑ f : Fin 64, g ⟨128 + f.val, by omega⟩ + ∑ f : Fin 64, g ⟨192 + f.val, by omega⟩) := by
  have h1 : ∑ j : Fin 256, g j = ∑ k : Fin 128, g (Fin.castAdd 128 k) + ∑ k : Fin 128, g (Fin.natAdd 128 k) :=
    Fin.sum_univ_add (a := 128) (b := 128) g
  have h2 : ∑ k : Fin 128, g (Fin.natAdd 128 k)
      = ∑ f : Fin 64, g (Fin.natAdd 128 (Fin.castAdd 64 f)) + ∑ f : Fin 64, g (Fin.natAdd 128 (Fin.natAdd 64 f)) :=
    Fin.sum_univ_add (a := 64) (b := 64) fun k => g (Fin.natAdd 128 k)
  rw [h1, h2]
  refine congrArg₂ (· + ·) (Finset.sum_congr rfl fun k _ => rfl)
    (congrArg₂ (· + ·) (Finset.sum_congr rfl fun f _ => rfl)
      (Finset.sum_congr rfl fun f _ => congrArg g (Fin.ext (by show 128 + (64 + f.val) = 192 + f.val; omega))))

/-- THE LAW that joins the two programs: the one product of length 256 is the two sums. The first 128 positions pair
    the key row with the probe; the next 64 pair the front-half lane magnitudes — the frequencies' own — with the
    weights; the last 64 multiply the second copy of the magnitudes by zero. -/
theorem stack_sum (x rt : Fin 128 → EReal) (u : Fin 64 → EReal) :
    ∑ j : Fin 256, stackRow x j * stackCol rt u j = ∑ k : Fin 128, x k * rt k + ∑ f : Fin 64, mag x f * u f := by
  rw [sum_256]
  have e1 : ∀ k : Fin 128, stackRow x ⟨k.val, by omega⟩ * stackCol rt u ⟨k.val, by omega⟩ = x k * rt k := fun k => by
    unfold stackRow stackCol
    rw [dif_pos (show k.val < 128 from k.isLt), dif_pos (show k.val < 128 from k.isLt)]
  have e2 : ∀ f : Fin 64, stackRow x ⟨128 + f.val, by omega⟩ * stackCol rt u ⟨128 + f.val, by omega⟩ = mag x f * u f := fun f => by
    unfold stackRow stackCol
    rw [dif_neg (show ¬ 128 + f.val < 128 by omega), dif_neg (show ¬ 128 + f.val < 128 by omega),
      dif_pos (show 128 + f.val < 192 by omega)]
    have hf : (⟨128 + f.val - 128, by omega⟩ : Fin 128) = front f := Fin.ext (by show 128 + f.val - 128 = f.val; omega)
    have hu : (⟨128 + f.val - 128, by omega⟩ : Fin 64) = f := Fin.ext (by show 128 + f.val - 128 = f.val; omega)
    rw [hf, hu, magDup_front]
  have e3 : ∀ f : Fin 64, stackRow x ⟨192 + f.val, by omega⟩ * stackCol rt u ⟨192 + f.val, by omega⟩ = 0 := fun f => by
    unfold stackCol
    rw [dif_neg (show ¬ 192 + f.val < 128 by omega), dif_neg (show ¬ 192 + f.val < 192 by omega), mul_zero]
  rw [Finset.sum_congr rfl fun k _ => e1 k, Finset.sum_congr rfl fun f _ => e2 f, Finset.sum_congr rfl fun f _ => e3 f,
    Finset.sum_const_zero, add_zero]

/-! ## The whole result array -/

/-- The result array as ONE function of the keys `K`, the rotated probes laid out column by column (`RT`: entry
    `(k, n)` is lane `k` of bin `n`'s rotated probe), the magnitude weights `U` and the biases `b`. -/
def logits (K : (⟨2, ![1000000, 128]⟩ : Shape).Idx → EReal) (RT : (⟨2, ![128, 128]⟩ : Shape).Idx → EReal)
    (U : (⟨2, ![128, 64]⟩ : Shape).Idx → EReal) (b : (⟨1, ![128]⟩ : Shape).Idx → EReal) :
    (⟨2, ![1000000, 128]⟩ : Shape).Idx → EReal :=
  fun i => logit (fun k => K (ix2 (i 0) k)) (fun k => RT (ix2 k (i 1))) (fun f => U (ix2 (i 1) f)) (b (ix1 (i 1)))

end Cert.Scoring

end
-- ==== Proof.RefLogits.lean ====
/-
  The reference's result, read element by element: it IS the score array of Scoring.lean, over the reference's own
  rotated-probe matrix. Entry (r, n) of the reference is the dot product of key row r with column n of the transposed
  rotated probes, plus the dot product of the row's 64 magnitudes √(K[r,f]² + K[r,64+f]² + ε) with row n of the
  magnitude weights (column n of their transpose), plus bias n broadcast down the rows.
-/
import proofs.«412296_j37520834298058_3_alg».proof.Proof.Gen.ReferenceIdeal.Read
import proofs.«412296_j37520834298058_3_alg».proof.Proof.Scoring

noncomputable section

open scoped BigOperators

namespace Cert.ReferenceIdeal.Logits

open Cert.ReferenceIdeal Cert.ReferenceIdeal.Read Idealize.ShloMosaic Idealize.ShloMosaic.ValueIdx

/-- The magnitude stage at (r, f): the two slices pick lanes f and 64 + f of row r. -/
theorem magnitude_apply (x0 : (⟨S1000000x128, .f32⟩ : BufTy).Contents (Elt Ideal)) (i : S1000000x128.Idx) (f : Fin 64) :
    val_main_v28 (F := Ideal) x0 (lidx_main_v30 i f) = Cert.Scoring.mag (fun k => x0 (ix2 (i 0) k)) f := by
  rw [val_main_v28_apply, val_main_v27_apply, val_main_v25_apply, val_main_v22_apply, val_main_v24_apply,
    val_main_v21_apply, val_main_v23_apply, val_main_v26_apply, val_main_cst_0_apply]
  have a1 : idx_main_v21 (lidx_main_v30 i f) = ix2 (i 0) (Cert.Scoring.front f) :=
    funext fun a => by match a with | ⟨0, _⟩ => rfl | ⟨1, _⟩ => rfl
  have a2 : idx_main_v23 (lidx_main_v30 i f) = ix2 (i 0) (Cert.Scoring.back f) :=
    funext fun a => by match a with | ⟨0, _⟩ => rfl | ⟨1, _⟩ => rfl
  rw [a1, a2]
  rfl

/-- The reference's result array is the score array over its own rotated-probe matrix (stage `main_v19`). -/
theorem result_eq (x0 : (⟨S1000000x128, .f32⟩ : BufTy).Contents (Elt Ideal)) (x1 : (⟨S64, .f32⟩ : BufTy).Contents (Elt Ideal))
    (x2 : (⟨S128x128, .f32⟩ : BufTy).Contents (Elt Ideal)) (x3 : (⟨S128x64, .f32⟩ : BufTy).Contents (Elt Ideal))
    (x4 : (⟨S128, .f32⟩ : BufTy).Contents (Elt Ideal)) :
    val_main_v34 (F := Ideal) x0 x1 x2 x3 x4 = Cert.Scoring.logits x0 (val_main_v19 (F := Ideal) x1 x2) x3 x4 := by
  funext i
  rw [val_main_v34_apply, val_main_v31_apply, val_main_v20_apply, val_main_v30_apply, val_main_v33_apply, val_main_v32_apply]
  have el : ∀ k : Fin 128, lidx_main_v20 i k = ix2 (i 0) k := fun k =>
    funext fun a => by match a with | ⟨0, _⟩ => rfl | ⟨1, _⟩ => rfl
  have er : ∀ k : Fin 128, ridx_main_v20 i k = ix2 k (i 1) := fun k =>
    funext fun a => by match a with | ⟨0, _⟩ => rfl | ⟨1, _⟩ => rfl
  have eu : ∀ f : Fin 64, val_main_v29 (F := Ideal) x3 (ridx_main_v30 i f) = x3 (ix2 (i 1) f) := fun f => by
    rw [val_main_v29_apply]
    exact congrArg x3 (funext fun a => by match a with | ⟨0, _⟩ => rfl | ⟨1, _⟩ => rfl)
  have eb : idx_main_v32 (idx_main_v33 i) = ix1 (i 1) := funext fun a => by match a with | ⟨0, _⟩ => rfl
  rw [eb]
  simp only [el, er, eu, magnitude_apply]
  rfl

end Cert.ReferenceIdeal.Logits

end
-- ==== Proof.KernelRow.lean ====
/-
  One element of the kernel body's result, from the body's three loaded blocks: at row r and bin n of a block the body
  stores  ∑_{j < 256} A[r, j] · W[j, n] + bias[0, n],  where A lays the key row beside its 128 lane magnitudes
  (Scoring.lean's `stackRow`) and W is the loaded weight block. The pieces: the rotation by 64 lanes read at a lane,
  the two halves of the concatenated operand, the matrix product into the zero accumulator as a plain sum over the
  one contracted axis, the bias row broadcast down the rows.
-/
import proofs.«412296_j37520834298058_3_alg».proof.Proof.Gen.KernelIdeal.Skeleton
import proofs.«412296_j37520834298058_3_alg».proof.Proof.Scoring
import Idealize.ShloMosaic.Lib.Pipeline.Value
import Idealize.ShloMosaic.Lib.KernelVsHost
import Idealize.ShloMosaic.Lib.ValueIdx
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-! ## The lane rotation and the concatenated operand -/

/-- Rotating a block by 64 of its 128 lanes brings to lane j the lane half a row away. -/
theorem rotate_apply (v : FVec Ideal S8000x128 .f32) (r : Fin 8000) (j : Fin 128) :
    dynamicRotate 1 64#32 none v rotates_S8000x128_d1 (ix2 r j) = v (ix2 r (Cert.Scoring.swap j)) := by
  refine dynamicRotate_apply (1 : Fin S8000x128.rank) 64#32 v rotates_S8000x128_d1 (ix2 r j) (ix2 r (Cert.Scoring.swap j)) ?_
  refine Fin.forall_fin_two.2 ⟨?_, ?_⟩
  · rw [if_neg (by decide)]
  · rw [if_pos rfl]
    show (j.val + 64) % 128 = (j.val + 128 - 64 % 128) % 128
    omega

/-- The lane magnitudes the body computes, at row r and lane j: the root of the lane's square plus its rotated
    partner's plus ε. -/
theorem magnitudes_apply (x0 : FVec Ideal S8000x128 .f32) (r : Fin 8000) (j : Fin 128) :
    sqrt (F := Ideal) (addf (addf (mulf x0 x0) (dynamicRotate 1 64#32 none (mulf x0 x0) rotates_S8000x128_d1))
        (broadcast S8000x128 (Scalar.ofBits .f32 0x322BCC77#32))) (ix2 r j)
      = Cert.Scoring.magDup (fun k => x0 (ix2 r k)) j := by
  show Ideal.sqrt ((x0 (ix2 r j) * x0 (ix2 r j) + dynamicRotate 1 64#32 none (mulf x0 x0) rotates_S8000x128_d1 (ix2 r j))
      + Ideal.ofBits .f32 0x322BCC77#32) = _
  rw [rotate_apply]
  rfl

/-- The concatenated operand at row r, position j of 256: the key row in the first 128 positions, the lane
    magnitudes in the last 128. -/
theorem operand_apply (x0 : FVec Ideal S8000x128 .f32) (r : Fin 8000) (j : Fin 256) :
    concatenate (α := EReal) S8000x256 1 [⟨S8000x128, truncf (F := Ideal) .bf16 x0 bitsLt_bf16_f32⟩,
        ⟨S8000x128, truncf (F := Ideal) .bf16 (sqrt (F := Ideal) (addf (addf (mulf x0 x0) (dynamicRotate 1 64#32 none (mulf x0 x0) rotates_S8000x128_d1))
          (broadcast S8000x128 (Scalar.ofBits .f32 0x322BCC77#32)))) bitsLt_bf16_f32⟩]
        concatenates_S8000x128_S8000x128_S8000x256_d1 (ix2 r j)
      = Cert.Scoring.stackRow (fun k => x0 (ix2 r k)) j := by
  unfold Cert.Scoring.stackRow
  by_cases h : j.val < 128
  · rw [dif_pos h]
    exact concatenate_pair_apply_left (1 : Fin S8000x256.rank) _ _ concatenates_S8000x128_S8000x128_S8000x256_d1 (ix2 r j) rfl
      (ix2 r (⟨j.val, h⟩ : Fin 128)) (fun b => match b with | ⟨0, _⟩ => rfl | ⟨1, _⟩ => rfl)
  · rw [dif_neg h]
    refine (concatenate_pair_apply_right (1 : Fin S8000x256.rank) _ _ concatenates_S8000x128_S8000x128_S8000x256_d1 (ix2 r j) rfl rfl
      (ix2 r (⟨j.val - 128, by omega⟩ : Fin 128)) (fun b hb => ?_) ?_).trans ?_
    · match b with
      | ⟨0, _⟩ => rfl
      | ⟨1, _⟩ => exact absurd rfl hb
    · show (j.val - 128) + 128 = j.val
      omega
    · exact magnitudes_apply x0 r _

/-! ## The matrix product -/

theorem lhs_axis0 (i : S8000x128.Idx) (q : dot_S8000x256_S256x128_S8000x128_1_0_0_1_n_n.contr.Idx) :
    (dot_S8000x256_S256x128_S8000x128_1_0_0_1_n_n.lhsIdx i q 0).val = (i 0).val := by
  unfold DotDims.lhsIdx
  rw [dif_neg (show ¬(0 : Fin S8000x256.rank) ∈ dot_S8000x256_S256x128_S8000x128_1_0_0_1_n_n.lhsBatch by decide), dif_pos (show (0 : Fin S8000x256.rank) ∈ dot_S8000x256_S256x128_S8000x128_1_0_0_1_n_n.lhsNonContracting by decide)]
  rfl
theorem lhs_axis1 (i : S8000x128.Idx) (q : dot_S8000x256_S256x128_S8000x128_1_0_0_1_n_n.contr.Idx) :
    (dot_S8000x256_S256x128_S8000x128_1_0_0_1_n_n.lhsIdx i q 1).val = (q ⟨0, by decide⟩).val :=
  dot_S8000x256_S256x128_S8000x128_1_0_0_1_n_n.lhsIdx_val_of_single rfl i q
theorem rhs_axis0 (i : S8000x128.Idx) (q : dot_S8000x256_S256x128_S8000x128_1_0_0_1_n_n.contr.Idx) :
    (dot_S8000x256_S256x128_S8000x128_1_0_0_1_n_n.rhsIdx i q 0).val = (q ⟨0, by decide⟩).val :=
  dot_S8000x256_S256x128_S8000x128_1_0_0_1_n_n.rhsIdx_val_of_single rfl i q
theorem rhs_axis1 (i : S8000x128.Idx) (q : dot_S8000x256_S256x128_S8000x128_1_0_0_1_n_n.contr.Idx) :
    (dot_S8000x256_S256x128_S8000x128_1_0_0_1_n_n.rhsIdx i q 1).val = (i 1).val := by
  unfold DotDims.rhsIdx
  rw [dif_neg (show ¬(1 : Fin S256x128.rank) ∈ dot_S8000x256_S256x128_S8000x128_1_0_0_1_n_n.rhsBatch by decide), dif_pos (show (1 : Fin S256x128.rank) ∈ dot_S8000x256_S256x128_S8000x128_1_0_0_1_n_n.rhsNonContracting by decide)]
  rfl

/-- The body's matrix product into the zero accumulator, at (r, n): the sum over the 256 contracted positions of
    the left operand's row r times the right operand's column n. -/
theorem product_apply (A : FVec Ideal S8000x256 .bf16) (B : FVec Ideal S256x128 .bf16) (r : Fin 8000) (n : Fin 128) :
    matmul dot_S8000x256_S256x128_S8000x128_1_0_0_1_n_n none A B (constant S8000x128 .f32 0x00000000#32) (ix2 r n)
      = ∑ k : Fin 256, A (ix2 r k) * B (ix2 k n) := by
  simp only [matmul]
  rw [Ideal.matmul_constant_zero_apply, ← Equiv.sum_comp (ValueIdx.contrEquiv1 dot_S8000x256_S256x128_S8000x128_1_0_0_1_n_n 256 rfl rfl).symm]
  refine Finset.sum_congr rfl fun k _ => ?_
  have hk := ValueIdx.contrEquiv1_symm_val dot_S8000x256_S256x128_S8000x128_1_0_0_1_n_n 256 rfl rfl k
  have el : dot_S8000x256_S256x128_S8000x128_1_0_0_1_n_n.lhsIdx (ix2 r n) ((ValueIdx.contrEquiv1 dot_S8000x256_S256x128_S8000x128_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S8000x256_S256x128_S8000x128_1_0_0_1_n_n.rhsIdx (ix2 r n) ((ValueIdx.contrEquiv1 dot_S8000x256_S256x128_S8000x128_1_0_0_1_n_n 256 rfl rfl).symm k) = ix2 k n := funext fun a => Fin.ext (by
    match a with
    | ⟨0, _⟩ => exact (rhs_axis0 _ _).trans hk
    | ⟨1, _⟩ => exact rhs_axis1 _ _)
  rw [el, er]

/-! ## The bias row -/

/-- The loaded bias block is one row of 128; broadcast down the 8000 rows it reads its lane n everywhere. -/
theorem bias_apply (x2 : Vec Ideal S1x128 .f32) (r : Fin 8000) (n : Fin 128) :
    broadcastTo S8000x128 (shapeCast S1x128 x2 shapeCasts_S1x128_S1x128) broadcasts_S1x128_S8000x128 (ix2 r n)
      = x2 (ix2 (0 : Fin 1) n) := by
  rw [shapeCast_self]
  exact broadcastTo_apply x2 broadcasts_S1x128_S8000x128 (ix2 r n) (ix2 (0 : Fin 1) n) (fun a => match a with
    | ⟨0, _⟩ => by show 0 = if (1 : Nat) = 1 then 0 else _; rw [if_pos rfl]
    | ⟨1, _⟩ => by show n.val = if (128 : Nat) = 1 then 0 else _; rw [if_neg (by decide)]; rfl)

/-! ## The stored value -/

/-- WHAT THE BODY STORES at row r, bin n of its output block, from its three loaded blocks: the stacked row of the
    key block's row r against column n of the weight block, plus the bias block's lane n. -/
theorem stored_apply (x0 : Vec Ideal S8000x128 .f32) (x1 : Vec Ideal S256x128 .bf16) (x2 : Vec Ideal S1x128 .f32)
    (r : Fin 8000) (n : Fin 128) :
    k0_pay1 (F := Ideal) x0 x1 x2 (ix2 r n)
      = (∑ j : Fin 256, Cert.Scoring.stackRow (fun k => x0 (ix2 r k)) j * x1 (ix2 j n)) + x2 (ix2 (0 : Fin 1) n) := by
  unfold k0_pay1
  refine congrArg₂ (· + ·) ((product_apply _ _ r n).trans (Finset.sum_congr rfl fun j _ => ?_)) (bias_apply x2 r n)
  exact congrArg₂ (· * ·) (operand_apply x0 r j) (congrFun (shapeCast_self x1 shapeCasts_S256x128_S256x128) (ix2 j n))

end Cert.KernelIdeal.Row

end
-- ==== Proof.KernelHost.lean ====
/-
  What the kernel's pallas_call finds in its two small operands, which @main computes on the host before the launch.

  The weight operand [256, 128]: rows 0–127 are the rotated probes transposed (entry (k, n) is lane k of bin n's
  rotated probe  p·cos θ + rotate_half(p)·sin θ,  p the probe divided by its norm plus ε), rows 128–191 the
  magnitude weights transposed (entry (128 + f, n) is weight f of bin n), rows 192–255 zeros; the change of format to
  bf16 is the identity on extended reals. Read at (j, n) it is Scoring.lean's `stackCol`.
  The bias operand [1, 128] is the bias vector as one row.
-/
import proofs.«412296_j37520834298058_3_alg».proof.Proof.Gen.KernelIdeal.Frame
import proofs.«412296_j37520834298058_3_alg».proof.Proof.Scoring
import Idealize.ShloMosaic.Lib.Pipeline.Value
import Idealize.ShloMosaic.Lib.StableHlo.Run
import Idealize.ShloMosaic.Lib.ValueIdx
import Idealize.ShloMosaic.PureOps.Ideal.Laws

noncomputable section

open scoped BigOperators

namespace Cert.KernelIdeal.Host

open Cert.KernelIdeal Cert.KernelIdeal.Gen Idealize.ShloMosaic Idealize.ShloMosaic.TcCoe Idealize.ShloMosaic.ValueIdx
open Idealize.ShloMosaic.StableHlo Idealize.SL.Sem

/-! ## The host's terms -/

/-- The probes, each row divided by its Euclidean norm plus ε. -/
def unitProbes (x2 : FVec Ideal S128x128 .f32) : FVec Ideal S128x128 .f32 :=
  Host.divf x2 (broadcastInDim S128x128 ![0, 1] bcast_S128x1_S128x128_0_1
    (addf (Host.sqrt (broadcastInDim S128x1 ![0] bcast_S128_S128x1_0
        (Host.reduceAdd (mulf x2 x2) (constant (F := Ideal) S_ .f32 0x00000000#32) reducesTo_S128x128_S128_d1 h_S_)))
      (broadcastInDim S128x1 ![] bcast_S_S128x1 (constant (F := Ideal) S_ .f32 0x322BCC77#32))))

/-- The 64 reference angles, twice: one per lane. -/
def laneAngles (x1 : FVec Ideal S64 .f32) : FVec Ideal S128 .f32 :=
  concatenate S128 0 [⟨S64, x1⟩, ⟨S64, x1⟩] concatenates_S64_S64_S128_d0

/-- The rotated probes  p·cos θ + rotate_half(p)·sin θ, bin by bin. -/
def rotated (x1 : FVec Ideal S64 .f32) (x2 : FVec Ideal S128x128 .f32) : FVec Ideal S128x128 .f32 :=
  addf
    (mulf (unitProbes x2)
      (broadcastInDim S128x128 ![0, 1] bcast_S1x128_S128x128_0_1 (broadcastInDim S1x128 ![1] bcast_S128_S1x128_1 (Host.cos (laneAngles x1)))))
    (mulf
      (concatenate S128x128 1
        [⟨S128x64, Host.negf (extractStridedSlice S128x64 ![0, 64] (unitProbes x2) slices_S128x128_S128x64_0_64)⟩,
         ⟨S128x64, extractStridedSlice S128x64 ![0, 0] (unitProbes x2) slices_S128x128_S128x64_0_0⟩]
        concatenates_S128x64_S128x64_S128x128_d1)
      (broadcastInDim S128x128 ![0, 1] bcast_S1x128_S128x128_0_1 (broadcastInDim S1x128 ![1] bcast_S128_S1x128_1 (Host.sin (laneAngles x1)))))

/-- The rotated probes transposed: entry (k, n) is lane k of bin n. -/
def rotatedT (x1 : FVec Ideal S64 .f32) (x2 : FVec Ideal S128x128 .f32) : FVec Ideal S128x128 .f32 :=
  transpose S128x128 [1, 0] (rotated x1 x2) transposes_S128x128_S128x128_1_0

/-- The stacked weight operand. -/
def weights (x1 : FVec Ideal S64 .f32) (x2 : FVec Ideal S128x128 .f32) (x3 : FVec Ideal S128x64 .f32) : FVec Ideal S256x128 .bf16 :=
  truncf .bf16
    (concatenate S256x128 0
      [⟨S128x128, rotatedT x1 x2⟩,
       ⟨S128x128, concatenate S128x128 0
          [⟨S64x128, transpose S64x128 [1, 0] x3 transposes_S128x64_S64x128_1_0⟩,
           ⟨S64x128, broadcastInDim S64x128 ![] bcast_S_S64x128 (constant (F := Ideal) S_ .f32 0x00000000#32)⟩]
          concatenates_S64x128_S64x128_S128x128_d0⟩]
      concatenates_S128x128_S128x128_S256x128_d0)
    bitsLt_bf16_f32

variable (m : (ℓ : Loc nD τ sig) → Buf (Elt Ideal) ℓ)

/-! ## What the region finds -/

/-- The region's weight operand is `weights` of the angle, probe and magnitude-weight arguments as launched. -/
theorem weights_found (c : Dev nD) :
    (V m c main_v24 : S256x128.Idx → EReal)
      = weights (m ((c : Thread nD τ).loc main_arg1)) (m ((c : Thread nD τ).loc main_arg2)) (m ((c : Thread nD τ).loc main_arg3)) := by
  dsimp only [V]
  simp only [hostOps0, hostOps0_1, List.flatten_cons, List.flatten_nil, List.append_nil, List.cons_append, List.nil_append]
  after_results_simp <;> rfl

/-- The region's bias operand is the bias argument cast to one row. -/
theorem bias_found (c : Dev nD) :
    (V m c main_v25 : S1x128.Idx → EReal) = shapeCast S1x128 (m ((c : Thread nD τ).loc main_arg4)) shapeCasts_S128_S1x128 := by
  dsimp only [V]
  simp only [hostOps0, hostOps0_1, List.flatten_cons, List.flatten_nil, List.append_nil, List.cons_append, List.nil_append]
  after_results_simp <;> rfl

/-! ## Read at an index -/

/-- The weight operand at row j of 256, bin n: the rotated probe's lane, then the magnitude weight, then zero. -/
theorem weights_apply (x1 : FVec Ideal S64 .f32) (x2 : FVec Ideal S128x128 .f32) (x3 : FVec Ideal S128x64 .f32) (j : Fin 256) (n : Fin 128) :
    weights x1 x2 x3 (ix2 j n) = Cert.Scoring.stackCol (fun k => rotatedT x1 x2 (ix2 k n)) (fun f => x3 (ix2 n f)) j := by
  unfold weights Cert.Scoring.stackCol
  rw [truncf_apply]
  by_cases h : j.val < 128
  · rw [dif_pos h]
    exact concatenate_pair_apply_left (0 : Fin S256x128.rank) _ _ concatenates_S128x128_S128x128_S256x128_d0 (ix2 j n) rfl
      (ix2 (⟨j.val, h⟩ : Fin 128) n) (fun b => match b with | ⟨0, _⟩ => rfl | ⟨1, _⟩ => rfl)
  · rw [dif_neg h]
    refine (concatenate_pair_apply_right (0 : Fin S256x128.rank) _ _ concatenates_S128x128_S128x128_S256x128_d0 (ix2 j n) rfl rfl
      (ix2 (⟨j.val - 128, by omega⟩ : Fin 128) n) (fun b hb => ?_) ?_).trans ?_
    · match b with
      | ⟨0, _⟩ => exact absurd rfl hb
      | ⟨1, _⟩ => rfl
    · show (j.val - 128) + 128 = j.val
      omega
    · by_cases h' : j.val < 192
      · rw [dif_pos h']
        refine (concatenate_pair_apply_left (0 : Fin S128x128.rank) _ _ concatenates_S64x128_S64x128_S128x128_d0
          (ix2 (⟨j.val - 128, by omega⟩ : Fin 128) n) rfl (ix2 (⟨j.val - 128, by omega⟩ : Fin 64) n)
          (fun b => match b with | ⟨0, _⟩ => rfl | ⟨1, _⟩ => rfl)).trans ?_
        exact transpose_apply [1, 0] x3 transposes_S128x64_S64x128_1_0 (ix2 (⟨j.val - 128, by omega⟩ : Fin 64) n)
          (ix2 n (⟨j.val - 128, by omega⟩ : Fin 64)) (fun b => match b with | ⟨0, _⟩ => rfl | ⟨1, _⟩ => rfl)
      · rw [dif_neg h']
        refine (concatenate_pair_apply_right (0 : Fin S128x128.rank) _ _ concatenates_S64x128_S64x128_S128x128_d0
          (ix2 (⟨j.val - 128, by omega⟩ : Fin 128) n) rfl rfl (ix2 (⟨j.val - 192, by omega⟩ : Fin 64) n) (fun b hb => ?_) ?_).trans ?_
        · match b with
          | ⟨0, _⟩ => exact absurd rfl hb
          | ⟨1, _⟩ => rfl
        · show (j.val - 192) + 64 = j.val - 128
          omega
        · refine (broadcastInDim_apply _ bcast_S_S64x128 _ _ ix0 (fun a => a.elim0)).trans ?_
          exact Ideal.ofBits_zero_f32

/-- The bias operand's lane n is the bias vector's entry n. -/
theorem bias_apply (x4 : FVec Ideal S128 .f32) (n : Fin 128) :
    shapeCast S1x128 x4 shapeCasts_S128_S1x128 (ix2 (0 : Fin 1) n) = x4 (ix1 n) :=
  shapeCast_apply x4 shapeCasts_S128_S1x128 (ix2 (0 : Fin 1) n) (ix1 n) (by
    rw [Shape.rowMajor_val_one, Shape.rowMajor_val_two]
    show n.val = 0 * 128 + n.val
    omega)

end Cert.KernelIdeal.Host

end
-- ==== Proof.KernelResult.lean ====
/-
  The kernel's result array after the run: the score array of Scoring.lean over the arguments as launched.

  Grid point t of 125 reads rows 8000·t … 8000·t + 7999 of the keys and the whole weight and bias operands, and writes
  back the same rows of the result; the 125 row blocks tile the array. Entry (r, n) of what point t writes is the
  body's stored value (KernelRow.lean) of those blocks: the stacked row of key row 8000·t + r against column n of the
  weight operand (KernelHost.lean: Scoring's `stackCol`), plus bias n; by the law `stack_sum` that is the score.
-/
import proofs.«412296_j37520834298058_3_alg».proof.Proof.Gen.KernelIdeal.Value
import proofs.«412296_j37520834298058_3_alg».proof.Proof.KernelRow
import proofs.«412296_j37520834298058_3_alg».proof.Proof.KernelHost
import proofs.«412296_j37520834298058_3_alg».proof.Proof.Scoring
import Idealize.ShloMosaic.Lib.Pipeline.Value
import Idealize.ShloMosaic.Lib.ValueIdx

noncomputable section

open scoped BigOperators

namespace Cert.KernelIdeal.Result

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The index maps over the grid: the key and result windows take row block t, the weight and bias windows their
    one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 125 :=
  Nat.lt_of_lt_of_eq t.isLt (show cfg0.N = 125 from N_0)

/-- The result array: the scores of the keys against the rotated probes, magnitude weights and biases as launched. -/
abbrev result (c : Dev nD) : S1000000x128.Idx → EReal :=
  Cert.Scoring.logits (m ((c : Thread nD τ).loc main_arg0))
    (Host.rotatedT (m ((c : Thread nD τ).loc main_arg1)) (m ((c : Thread nD τ).loc main_arg2)))
    (m ((c : Thread nD τ).loc main_arg3)) (m ((c : Thread nD τ).loc main_arg4))

/-! ## The three input blocks at a point -/

/-- The key block at point t is rows 8000·t … of the key argument. -/
theorem keys_block (c : Dev nD) (t : Fin cfg0.N) (r : Fin 8000) (k : Fin 128) (hR : t.val * 8000 + r.val < 1000000) :
    (iblk m c 0 t : Vec Ideal S8000x128 .f32) (ix2 r k)
      = (m ((c : Thread nD τ).loc main_arg0) : S1000000x128.Idx → EReal) (ix2 (⟨t.val * 8000 + r.val, hR⟩ : Fin 1000000) k) := by
  obtain ⟨e0, e1, -⟩ := index_maps t
  unfold iblk
  rw [View.read_apply]
  show V m c main_arg0 _ = _
  rw [V_main_arg0]
  refine congrArg (m ((c : Thread nD τ).loc main_arg0) : S1000000x128.Idx → EReal) (funext fun a => Fin.ext ?_)
  match a with
  | ⟨0, _⟩ => show win0_0.index t (0 : Fin 2) * 8000 + 1 * r.val = t.val * 8000 + r.val; rw [e0]; omega
  | ⟨1, _⟩ => show win0_0.index t (1 : Fin 2) * 128 + 1 * k.val = k.val; rw [e1]; omega

/-- The weight block at every point is the whole weight operand. -/
theorem weights_block (c : Dev nD) (t : Fin cfg0.N) (j : Fin 256) (n : Fin 128) :
    (iblk m c 1 t : Vec Ideal S256x128 .bf16) (ix2 j n) = (V m c main_v24 : S256x128.Idx → EReal) (ix2 j n) := by
  obtain ⟨-, -, e2, e3, -⟩ := index_maps t
  unfold iblk
  rw [View.read_apply]
  show V m c main_v24 _ = _
  refine congrArg (V m c main_v24 : S256x128.Idx → EReal) (funext fun a => Fin.ext ?_)
  match a with
  | ⟨0, _⟩ => show win0_1.index t (0 : Fin 2) * 256 + 1 * j.val = j.val; rw [e2]; omega
  | ⟨1, _⟩ => show win0_1.index t (1 : Fin 2) * 128 + 1 * n.val = n.val; rw [e3]; omega

/-- The bias block at every point is the whole bias operand. -/
theorem bias_block (c : Dev nD) (t : Fin cfg0.N) (n : Fin 128) :
    (iblk m c 2 t : Vec Ideal S1x128 .f32) (ix2 (0 : Fin 1) n) = (V m c main_v25 : S1x128.Idx → EReal) (ix2 (0 : Fin 1) n) := by
  obtain ⟨-, -, -, -, e4, e5, -⟩ := index_maps t
  unfold iblk
  rw [View.read_apply]
  show V m c main_v25 _ = _
  refine congrArg (V m c main_v25 : S1x128.Idx → EReal) (funext fun a => Fin.ext ?_)
  match a with
  | ⟨0, _⟩ => show win0_2.index t (0 : Fin 2) * 1 + 1 * 0 = 0; rw [e4]
  | ⟨1, _⟩ => show win0_2.index t (1 : Fin 2) * 128 + 1 * n.val = n.val; rw [e5]; omega

/-! ## What a point writes -/

/-- Entry (r, n) of the body's result at point t is the score of key row 8000·t + r against bin n. -/
theorem block_value (c : Dev nD) (t : Fin cfg0.N) (r : Fin 8000) (n : Fin 128) (hR : t.val * 8000 + r.val < 1000000) :
    k0_pay1 (F := Ideal) (iblk m c 0 t) (iblk m c 1 t) (iblk m c 2 t) (ix2 r n)
      = result m c (ix2 (⟨t.val * 8000 + r.val, hR⟩ : Fin 1000000) n) := by
  have e0 : (fun k : Fin 128 => (iblk m c 0 t : Vec Ideal S8000x128 .f32) (ix2 r k))
      = fun k : Fin 128 => (m ((c : Thread nD τ).loc main_arg0) : S1000000x128.Idx → EReal) (ix2 (⟨t.val * 8000 + r.val, hR⟩ : Fin 1000000) k) :=
    funext fun k => keys_block m c t r k hR
  have e1 : ∀ j : Fin 256, (iblk m c 1 t : Vec Ideal S256x128 .bf16) (ix2 j n)
      = Cert.Scoring.stackCol (fun k => Host.rotatedT (m ((c : Thread nD τ).loc main_arg1)) (m ((c : Thread nD τ).loc main_arg2)) (ix2 k n))
          (fun f => (m ((c : Thread nD τ).loc main_arg3) : S128x64.Idx → EReal) (ix2 n f)) j := fun j =>
    (weights_block m c t j n).trans ((congrFun (Host.weights_found m c) (ix2 j n)).trans (Host.weights_apply _ _ _ j n))
  have e2 : (iblk m c 2 t : Vec Ideal S1x128 .f32) (ix2 (0 : Fin 1) n) = (m ((c : Thread nD τ).loc main_arg4) : S128.Idx → EReal) (ix1 n) :=
    (bias_block m c t n).trans ((congrFun (Host.bias_found m c) (ix2 (0 : Fin 1) n)).trans (Host.bias_apply _ n))
  have key : (∑ j : Fin 256, Cert.Scoring.stackRow (fun k : Fin 128 => (iblk m c 0 t : Vec Ideal S8000x128 .f32) (ix2 r k)) j
        * (iblk m c 1 t : Vec Ideal S256x128 .bf16) (ix2 j n))
      = ∑ j : Fin 256, Cert.Scoring.stackRow (fun k : Fin 128 => (m ((c : Thread nD τ).loc main_arg0) : S1000000x128.Idx → EReal) (ix2 (⟨t.val * 8000 + r.val, hR⟩ : Fin 1000000) k)) j
        * Cert.Scoring.stackCol (fun k => Host.rotatedT (m ((c : Thread nD τ).loc main_arg1)) (m ((c : Thread nD τ).loc main_arg2)) (ix2 k n))
          (fun f => (m ((c : Thread nD τ).loc main_arg3) : S128x64.Idx → EReal) (ix2 n f)) j :=
    Finset.sum_congr rfl fun j _ => congrArg₂ (· * ·) (congrArg (fun x => Cert.Scoring.stackRow x j) e0) (e1 j)
  exact (Row.stored_apply (iblk m c 0 t) (iblk m c 1 t) (iblk m c 2 t) r n).trans
    (congrArg₂ (· + ·) (key.trans (Cert.Scoring.stack_sum _ _ _)) e2)

/-- Where point t's result block sits in the array: row r of the block is row 8000·t + r. -/
theorem block_index (t : Fin cfg0.N) (r : Fin 8000) (n : Fin 128) (hR : t.val * 8000 + r.val < 1000000) :
    ((cfg0.win 3).blk t).view.emb (ix2 r n) = ix2 (⟨t.val * 8000 + r.val, hR⟩ : Fin 1000000) n := by
  obtain ⟨-, -, -, -, -, -, e6, e7⟩ := index_maps t
  funext a
  apply Fin.ext
  match a with
  | ⟨0, _⟩ => show win0_3.index t (0 : Fin 2) * 8000 + 1 * r.val = t.val * 8000 + r.val; rw [e6]; omega
  | ⟨1, _⟩ => show win0_3.index t (1 : Fin 2) * 128 + 1 * n.val = n.val; rw [e7]; omega

/-- WHAT POINT t WRITES BACK is block t of the score array. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero offsets_zero]
  simp only [View.ld_unit_zero (S := S8000x128) offsets_zero, View.ld_unit_zero (S := S256x128) offsets_zero,
    View.ld_unit_zero (S := S1x128) offsets_zero]
  funext y
  obtain ⟨r, n, rfl⟩ : ∃ (r : Fin 8000) (n : Fin 128), y = ix2 r n := ⟨y 0, y 1, eq_ix2 y⟩
  have hR : t.val * 8000 + r.val < 1000000 := by have := point_lt t; have := r.isLt; omega
  show k0_pay1 (F := Ideal) (iblk m c 0 t) (iblk m c 1 t) (iblk m c 2 t) (ix2 r n) = result m c (((cfg0.win 3).blk t).view.emb (ix2 r n))
  rw [block_index t r n hR]
  exact block_value m c t r n hR

/-! ## The blocks tile the array -/

theorem mem_block (t : Fin cfg0.N) (i : S1000000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v26).slice (win0_3.rect t)).set ↔ _
  rw [View.set_slice_whole, Rect.mem_set_unit]
  exact Iff.rfl

/-- Row R of the array is in the block of point R / 8000. -/
theorem cover (i : S1000000x128.Idx) : ∃ t : Fin cfg0.N, (cfg0.win 3).flush t = true ∧ i ∈ ((cfg0.win 3).blk t).view.set := by
  have hi0 : (i 0).val < 1000000 := (i 0).isLt
  have hi1 : (i 1).val < 128 := (i 1).isLt
  have hN : cfg0.N = 125 := N_0
  have ht : (i 0).val / 8000 < cfg0.N := by rw [hN]; omega
  obtain ⟨-, -, -, -, -, -, e6, e7⟩ := index_maps ⟨(i 0).val / 8000, ht⟩
  refine ⟨⟨(i 0).val / 8000, ht⟩, flush0_3 _, ?_⟩
  rw [mem_block]
  intro a
  match a with
  | ⟨0, _⟩ =>
    show win0_3.index ⟨(i 0).val / 8000, ht⟩ (0 : Fin 2) * 8000 ≤ (i 0).val ∧ (i 0).val < win0_3.index ⟨(i 0).val / 8000, ht⟩ (0 : Fin 2) * 8000 + 8000
    rw [e6]
    show (i 0).val / 8000 * 8000 ≤ (i 0).val ∧ (i 0).val < (i 0).val / 8000 * 8000 + 8000
    omega
  | ⟨1, _⟩ =>
    show win0_3.index ⟨(i 0).val / 8000, ht⟩ (1 : Fin 2) * 128 ≤ (i 1).val ∧ (i 1).val < win0_3.index ⟨(i 0).val / 8000, ht⟩ (1 : Fin 2) * 128 + 128
    rw [e7]
    omega

/-! ## The array and the run -/

/-- After the run the result array holds the scores. -/
theorem final (c : Dev nD) : (dats m 0 c).arrAt 3 cfg0.N = result m c :=
  (dats m 0 c).arrAt_eq_of_cover 3 (result m c) (fun t _ => flushed_eq m c t) cover

/-- The kernel's run, read: the result array at the scores, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.lean ====
/-
  Bin scores of one million keys: a Pallas kernel against its jnp reference, equal over the extended reals.

  Both programs first turn the 128 probes into unit vectors (each divided by its norm plus ε), rotate them by the
  reference angles (p·cos θ + rotate_half(p)·sin θ) and transpose the result: the SAME host operations on the same
  arguments, so the two rotated-probe matrices are one term (`rotated_same`). The reference then computes
  K · rotatedᵀ + |K| · uᵀ + bias as two matrix products, |K| the 64 magnitudes √(re² + im² + ε) of each key row.
  The kernel computes, per block of 8000 rows, ONE product of contraction length 256: the key rows beside their 128
  lane magnitudes (the squares plus their rotation by half a row), against the rotated probes stacked on the
  magnitude weights stacked on 64 rows of zeros. The zero rows meet the second copy of the magnitudes, a product with
  0 is 0 on the extended reals, and the rest is a regrouping of sums (Scoring.lean, `stack_sum`): the two results
  are equal element by element whatever the inputs, so the precondition is never opened. The ideal pass rewrote
  nothing, so the kernel's idealization is its own text and `preserves` is trivial.
-/
import proofs.«412296_j37520834298058_3_alg».proof.Defs
import proofs.«412296_j37520834298058_3_alg».proof.Proof.Gen.Kernel
import proofs.«412296_j37520834298058_3_alg».proof.Proof.Gen.Kernel.Skeleton
import proofs.«412296_j37520834298058_3_alg».proof.Proof.Gen.Kernel.Launch
import proofs.«412296_j37520834298058_3_alg».proof.Proof.Gen.Kernel.Points
import proofs.«412296_j37520834298058_3_alg».proof.Proof.Gen.Kernel.Frame
import proofs.«412296_j37520834298058_3_alg».proof.Proof.Gen.KernelIdeal
import proofs.«412296_j37520834298058_3_alg».proof.Proof.Gen.KernelIdeal.Skeleton
import proofs.«412296_j37520834298058_3_alg».proof.Proof.Gen.KernelIdeal.Launch
import proofs.«412296_j37520834298058_3_alg».proof.Proof.Gen.KernelIdeal.Points
import proofs.«412296_j37520834298058_3_alg».proof.Proof.Gen.KernelIdeal.Frame
import proofs.«412296_j37520834298058_3_alg».proof.Proof.Gen.ReferenceIdeal
import proofs.«412296_j37520834298058_3_alg».proof.Proof.Gen.Pre_finite_inputs
import proofs.«412296_j37520834298058_3_alg».proof.Proof.Gen.KernelIdeal.Value
import proofs.«412296_j37520834298058_3_alg».proof.Proof.Gen.ReferenceIdeal.Run
import proofs.«412296_j37520834298058_3_alg».proof.Proof.Gen.ReferenceIdeal.Read
import proofs.«412296_j37520834298058_3_alg».proof.Proof.Scoring
import proofs.«412296_j37520834298058_3_alg».proof.Proof.RefLogits
import proofs.«412296_j37520834298058_3_alg».proof.Proof.KernelResult
import Idealize.ShloMosaic.Adequacy
import Idealize.ShloMosaic.Init

noncomputable section

namespace Cert.Proof

open Idealize.ShloMosaic Idealize.ShloMosaic.TcCoe Idealize.SL.Sem

/-- The kernel's and the reference's rotated-probe matrices are one function of the angles and the probes: the two
    programs spell it with the same operations in the same order. -/
theorem rotated_same (x1 : (⟨1, ![64]⟩ : Shape).Idx → EReal) (x2 : (⟨2, ![128, 128]⟩ : Shape).Idx → EReal) :
    Cert.KernelIdeal.Host.rotatedT x1 x2 = Cert.ReferenceIdeal.Read.val_main_v19 (F := Ideal) x1 x2 := rfl

/-- The word-level kernel runs and leaves its arguments alone: the generated frame. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the score array of the arguments: the kernel's by its blocks (KernelResult.lean), the
    reference's by its stages read at an index (RefLogits.lean), over one rotated-probe matrix. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.Logits.result_eq,
    (hagree c).1, (hagree c).2.1, (hagree c).2.2.1, (hagree c).2.2.2.1, (hagree c).2.2.2.2, ← rotated_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
